-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S500000x128 : Shape := ⟨2, ![500000, 128]⟩
abbrev S500000x1 : Shape := ⟨2, ![500000, 1]⟩
abbrev S32768 : Shape := ⟨1, ![32768]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S500000x1 : S_.BroadcastsInDim S500000x1 (![] : Fin 0 → Fin S500000x1.rank)
  reducesTo_S500000x1_S_d0_1 : S500000x1.ReducesTo [0, 1] S_

variable [Facts]

def fn {F : FTy → Type} [FloatOps F] (main_arg0 : FVec F S4096x128 .f32) (main_arg1 : FVec F S500000x128 .f32) (main_arg2 : FVec F S500000x1 .f32) (main_arg3 : IVec S32768 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x1 .f32 := Host.absf main_arg2
  let main_cst_2 : FVec F S_ .f32 := constant S_ .f32 0x7F800000#32
  let main_v10 : FVec F S500000x1 .f32 := broadcastInDim S500000x1 ![] bcast_S_S500000x1 main_cst_2
  let main_v11 : IVec S500000x1 1 := cmpf .olt main_v9 main_v10
  let main_c_3 : IVec S_ 1 := constantI S_ 1 1#1
  let main_v12 : IVec S_ 1 := (fun x v => Host.reduce IntOp.andi x v reducesTo_S500000x1_S_d0_1 h_S_) main_v11 main_c_3
  let main_v13 : IVec S_ 1 := andi main_v8 main_v12
  main_v13
-- ==== Kernel.lean ====
abbrev S4096x128 : Shape := ⟨2, ![4096, 128]⟩
abbrev S500000x128 : Shape := ⟨2, ![500000, 128]⟩
abbrev S500000x1 : Shape := ⟨2, ![500000, 1]⟩
abbrev S32768 : Shape := ⟨1, ![32768]⟩
abbrev S_ : Shape := ⟨0, ![]⟩
abbrev S32768x1 : Shape := ⟨2, ![32768, 1]⟩
abbrev S32768x128 : Shape := ⟨2, ![32768, 128]⟩
abbrev S500000 : Shape := ⟨1, ![500000]⟩
abbrev S1x32768 : Shape := ⟨2, ![1, 32768]⟩
abbrev S4096x32768 : Shape := ⟨2, ![4096, 32768]⟩
abbrev S1024x128 : Shape := ⟨2, ![1024, 128]⟩
abbrev S2048x128 : Shape := ⟨2, ![2048, 128]⟩
abbrev S1x2048 : Shape := ⟨2, ![1, 2048]⟩
abbrev S1024x2048 : Shape := ⟨2, ![1024, 2048]⟩

abbrev nBuf : Space → Nat
  | .hbm => 27
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S500000x128, .f32⟩
  | .hbm, ⟨2, _⟩ => ⟨S500000x1, .f32⟩
  | .hbm, ⟨3, _⟩ => ⟨S32768, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768x128, .f32⟩
  | .hbm, ⟨13, _⟩ => ⟨S500000, .f32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768, .f32⟩
  | .hbm, ⟨23, _⟩ => ⟨S4096x128, .bf16⟩
  | .hbm, ⟨24, _⟩ => ⟨S32768x128, .bf16⟩
  | .hbm, ⟨25, _⟩ => ⟨S1x32768, .f32⟩
  | .hbm, ⟨26, _⟩ => ⟨S4096x32768, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  shapeCasts_S500000x1_S500000 : S500000x1.ShapeCasts S500000
  bitsLt_bf16_f32 : FTy.bits .bf16 < FTy.bits .f32
  shapeCasts_S32768_S1x32768 : S32768.ShapeCasts S1x32768
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  gather_S500000x128_S32768x1_S32768x128_1_0_n_n_0_1_1128_wf : GatherDims.WF S500000x128 S32768x1 S32768x128 [1] [0] [] [0] [] 1 ![1, 128]
  gather_S500000_S32768x1_S32768_n_0_n_n_0_1_1_wf : GatherDims.WF S500000 S32768x1 S32768 [] [0] [] [0] [] 1 ![1]
  dot_S1024x128_S2048x128_S1024x2048_1_1_0_0_n_n_wf : DotDims.WF S1024x128 S2048x128 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .bf16 = 32 ∨ (Rect.block (s := S4096x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .bf16 = 32 ∨ (Rect.block (s := S32768x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x32768.size a
  hwx0_2 : ∀ i : grid0.Coords, EltTy.bits .f32 = 32 ∨ (Rect.block (s := S1x32768) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S4096x32768.size a
  hwx0_3 : ∀ i : grid0.Coords, EltTy.bits .f32 = 32 ∨ (Rect.block (s := S4096x32768) S1024x2048.size (cc0_transform_3 i) (hinb0_3 i)).WholeWords (EltTy.packing .f32)

variable [Facts₀]

def gather_S500000x128_S32768x1_S32768x128_1_0_n_n_0_1_1128 : GatherDims S500000x128 S32768x1 S32768x128 where
  offsetDims := [1]
  collapsedSliceDims := [0]
  operandBatchingDims := []
  startIndicesBatchingDims := []
  startIndexMap := [0]
  indexVectorDim := 1
  sliceSizes := ![1, 128]
  wf := gather_S500000x128_S32768x1_S32768x128_1_0_n_n_0_1_1128_wf
def gather_S500000_S32768x1_S32768_n_0_n_n_0_1_1 : GatherDims S500000 S32768x1 S32768 where
  offsetDims := []
  collapsedSliceDims := [0]
  operandBatchingDims := []
  startIndicesBatchingDims := []
  startIndexMap := [0]
  indexVectorDim := 1
  sliceSizes := ![1]
  wf := gather_S500000_S32768x1_S32768_n_0_n_n_0_1_1_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf

abbrev win0_0 : Pipeline.Window sig grid0 :=
  Pipeline.Window.ofSpec (Memref.whole main_v15) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S500000x128 : Shape := ⟨2, ![500000, 128]⟩
abbrev S500000x1 : Shape := ⟨2, ![500000, 1]⟩
abbrev S32768 : Shape := ⟨1, ![32768]⟩
abbrev S_ : Shape := ⟨0, ![]⟩
abbrev S32768x1 : Shape := ⟨2, ![32768, 1]⟩
abbrev S32768x128 : Shape := ⟨2, ![32768, 128]⟩
abbrev S500000 : Shape := ⟨1, ![500000]⟩
abbrev S4096x32768 : Shape := ⟨2, ![4096, 32768]⟩
abbrev S1x32768 : Shape := ⟨2, ![1, 32768]⟩

abbrev nBuf : Space → Nat
  | .hbm => 27
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S500000x128, .f32⟩
  | .hbm, ⟨2, _⟩ => ⟨S500000x1, .f32⟩
  | .hbm, ⟨3, _⟩ => ⟨S32768, .i32⟩
  | .hbm, ⟨4, _⟩ => ⟨S_, .i32⟩
  | .hbm, ⟨5, _⟩ => ⟨S32768, .i32⟩
  | .hbm, ⟨6, _⟩ => ⟨S32768, .i1⟩
  | .hbm, ⟨7, _⟩ => ⟨S_, .i32⟩
  | .hbm, ⟨8, _⟩ => ⟨S32768, .i32⟩
  | .hbm, ⟨9, _⟩ => ⟨S32768, .i32⟩
  | .hbm, ⟨10, _⟩ => ⟨S32768, .i32⟩
  | .hbm, ⟨11, _⟩ => ⟨S32768x1, .i32⟩
  | .hbm, ⟨12, _⟩ => ⟨S32768x128, .f32⟩
  | .hbm, ⟨13, _⟩ => ⟨S500000, .f32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768, .f32⟩
  | .hbm, ⟨23, _⟩ => ⟨S4096x32768, .f32⟩
  | .hbm, ⟨24, _⟩ => ⟨S1x32768, .f32⟩
  | .hbm, ⟨25, _⟩ => ⟨S4096x32768, .f32⟩
  | .hbm, ⟨26, _⟩ => ⟨S4096x32768, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S32768_S32768x1_0 : S32768.BroadcastsInDim S32768x1 (![0] : Fin 1 → Fin S32768x1.rank)
  shapeCasts_S500000x1_S500000 : S500000x1.ShapeCasts S500000
  bcast_S32768_S1x32768_1 : S32768.BroadcastsInDim S1x32768 (![1] : Fin 1 → Fin S1x32768.rank)
  bcast_S1x32768_S4096x32768_0_1 : S1x32768.BroadcastsInDim S4096x32768 (![0, 1] : Fin 2 → Fin S4096x32768.rank)
  gather_S500000x128_S32768x1_S32768x128_1_0_n_n_0_1_1128_wf : GatherDims.WF S500000x128 S32768x1 S32768x128 [1] [0] [] [0] [] 1 ![1, 128]
  gather_S500000_S32768x1_S32768_n_0_n_n_0_1_1_wf : GatherDims.WF S500000 S32768x1 S32768 [] [0] [] [0] [] 1 ![1]
  dot_S4096x128_S32768x128_S4096x32768_1_1_0_0_n_n_wf : DotDims.WF S4096x128 S32768x128 S4096x32768 [1] [1] [0] [0] [] []

variable [Facts₀]

def gather_S500000x128_S32768x1_S32768x128_1_0_n_n_0_1_1128 : GatherDims S500000x128 S32768x1 S32768x128 where
  offsetDims := [1]
  collapsedSliceDims := [0]
  operandBatchingDims := []
  startIndicesBatchingDims := []
  startIndexMap := [0]
  indexVectorDim := 1
  sliceSizes := ![1, 128]
  wf := gather_S500000x128_S32768x1_S32768x128_1_0_n_n_0_1_1128_wf
def gather_S500000_S32768x1_S32768_n_0_n_n_0_1_1 : GatherDims S500000 S32768x1 S32768 where
  offsetDims := []
  collapsedSliceDims := [0]
  operandBatchingDims := []
  startIndicesBatchingDims := []
  startIndexMap := [0]
  indexVectorDim := 1
  sliceSizes := ![1]
  wf := gather_S500000_S32768x1_S32768_n_0_n_n_0_1_1_wf
def dot_S4096x128_S32768x128_S4096x32768_1_1_0_0_n_n : DotDims S4096x128 S32768x128 S4096x32768 where
  lhsContracting := [1]
  rhsContracting := [1]
  lhsNonContracting := [0]
  rhsNonContracting := [0]
  lhsBatch := []
  rhsBatch := []
  wf := dot_S4096x128_S32768x128_S4096x32768_1_1_0_0_n_n_wf

class Facts : Prop extends Facts₀ where

variable [Facts]
-- ==== Proof.Logits.lean ====
/-
  Sampled-class logits.  For 4096 activation rows x[n, ·] of 128 features, and 32768 sampled classes with an embedding
  row w[s, ·] and a bias b[s] each,

      logits[n, s] = Σ_d x[n, d] · w[s, d] + b[s]

  on the extended reals: every row of activations against every sampled row, contracted over the feature axis, the
  class's bias added.  Both programs are shown to end with this one function of the activations, the sampled rows
  and the sampled biases; no law beyond reading each side's operations at an entry is needed, so the inputs'
  finiteness is never used.
-/
import Idealize.ShloMosaic.Lib.ValueIdx
import Idealize.ShloMosaic.PureOps.Ideal

noncomputable section

namespace Cert.SampledLogits

open Idealize.ShloMosaic Idealize.ShloMosaic.ValueIdx

/-- Entry (n, s): the n-th activation row against the s-th sampled row, summed over the 128 features, plus the
    s-th sampled bias. -/
def logits (x : FVec Ideal ⟨2, ![4096, 128]⟩ .f32) (w : FVec Ideal ⟨2, ![32768, 128]⟩ .f32)
    (b : FVec Ideal ⟨1, ![32768]⟩ .f32) : FVec Ideal ⟨2, ![4096, 32768]⟩ .f32 :=
  fun i => (∑ d : Fin 128, x (ix2 (i 0) d) * w (ix2 (i 1) d)) + b (ix1 (i 1))

/-- The same entry with its two coordinates named. -/
theorem logits_apply (x : FVec Ideal ⟨2, ![4096, 128]⟩ .f32) (w : FVec Ideal ⟨2, ![32768, 128]⟩ .f32)
    (b : FVec Ideal ⟨1, ![32768]⟩ .f32) (n : Fin 4096) (s : Fin 32768) :
    logits x w b (ix2 n s) = (∑ d : Fin 128, x (ix2 n d) * w (ix2 s d)) + b (ix1 s) := rfl

end Cert.SampledLogits

end
-- ==== Proof.Tile.lean ====
/-
  One tile of the kernel, at an entry.  The body takes a [1024, 128] block of activation rows, a [2048, 128] block of
  sampled embedding rows and a [1, 2048] block of sampled biases, multiplies the first by the transpose of the second
  (both operands are contracted over their feature axis, axis 1) into a zero accumulator, and adds the bias block
  broadcast down the 1024 rows.  On the extended reals its entry (p, q) is therefore
      Σ_d a[p, d] · w[q, d] + b[0, q].
-/
import proofs.«116178_j69965017252067_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-! ## The product's operand indices, axis by axis

The output entry's row indexes the left operand's rows and its column the RIGHT OPERAND'S ROWS (the right operand is
used transposed); the contraction coordinate indexes both operands' feature axis. -/

theorem lhs_row (i : S1024x2048.Idx) (k : dot_S1024x128_S2048x128_S1024x2048_1_1_0_0_n_n.contr.Idx) :
    (dot_S1024x128_S2048x128_S1024x2048_1_1_0_0_n_n.lhsIdx i k 0).val = (i 0).val := by
  unfold DotDims.lhsIdx
  rw [dif_neg (show ¬(0 : Fin S1024x128.rank) ∈ dot_S1024x128_S2048x128_S1024x2048_1_1_0_0_n_n.lhsBatch by decide),
    dif_pos (show (0 : Fin S1024x128.rank) ∈ dot_S1024x128_S2048x128_S1024x2048_1_1_0_0_n_n.lhsNonContracting by decide)]
  rfl

theorem lhs_feature (i : S1024x2048.Idx) (k : dot_S1024x128_S2048x128_S1024x2048_1_1_0_0_n_n.contr.Idx) :
    (dot_S1024x128_S2048x128_S1024x2048_1_1_0_0_n_n.lhsIdx i k 1).val = (k ⟨0, by decide⟩).val :=
  dot_S1024x128_S2048x128_S1024x2048_1_1_0_0_n_n.lhsIdx_val_of_single rfl i k

theorem rhs_row (i : S1024x2048.Idx) (k : dot_S1024x128_S2048x128_S1024x2048_1_1_0_0_n_n.contr.Idx) :
    (dot_S1024x128_S2048x128_S1024x2048_1_1_0_0_n_n.rhsIdx i k 0).val = (i 1).val := by
  unfold DotDims.rhsIdx
  rw [dif_neg (show ¬(0 : Fin S2048x128.rank) ∈ dot_S1024x128_S2048x128_S1024x2048_1_1_0_0_n_n.rhsBatch by decide),
    dif_pos (show (0 : Fin S2048x128.rank) ∈ dot_S1024x128_S2048x128_S1024x2048_1_1_0_0_n_n.rhsNonContracting by decide)]
  rfl

theorem rhs_feature (i : S1024x2048.Idx) (k : dot_S1024x128_S2048x128_S1024x2048_1_1_0_0_n_n.contr.Idx) :
    (dot_S1024x128_S2048x128_S1024x2048_1_1_0_0_n_n.rhsIdx i k 1).val = (k ⟨0, by decide⟩).val :=
  dot_S1024x128_S2048x128_S1024x2048_1_1_0_0_n_n.rhsIdx_val_of_single rfl i k

/-! ## The product into the zero accumulator -/

/-- Entry (p, q) of the tile's product: row p of the activations against row q of the sampled rows, summed over the
    feature coordinate (the one-axis contraction index re-indexed by its coordinate). -/
theorem product_apply (a : FVec Ideal S1024x128 .bf16) (w : FVec Ideal S2048x128 .bf16) (p : Fin 1024) (q : Fin 2048) :
    matmul dot_S1024x128_S2048x128_S1024x2048_1_1_0_0_n_n none a w (constant (F := Ideal) S1024x2048 .f32 0x00000000#32) (ix2 p q)
      = ∑ d : Fin 128, a (ix2 p d) * w (ix2 q d) := by
  simp only [matmul]
  rw [Ideal.matmul_constant_zero_apply, ← Equiv.sum_comp (contrEquiv1 dot_S1024x128_S2048x128_S1024x2048_1_1_0_0_n_n 128 rfl rfl).symm]
  refine Finset.sum_congr rfl fun d _ => ?_
  have hd := contrEquiv1_symm_val dot_S1024x128_S2048x128_S1024x2048_1_1_0_0_n_n 128 rfl rfl d
  have el : dot_S1024x128_S2048x128_S1024x2048_1_1_0_0_n_n.lhsIdx (ix2 p q) ((contrEquiv1 dot_S1024x128_S2048x128_S1024x2048_1_1_0_0_n_n 128 rfl rfl).symm d) = ix2 p d :=
    funext fun ax => Fin.ext (by
      match ax with
      | ⟨0, _⟩ => exact lhs_row _ _
      | ⟨1, _⟩ => exact (lhs_feature _ _).trans hd)
  have er : dot_S1024x128_S2048x128_S1024x2048_1_1_0_0_n_n.rhsIdx (ix2 p q) ((contrEquiv1 dot_S1024x128_S2048x128_S1024x2048_1_1_0_0_n_n 128 rfl rfl).symm d) = ix2 q d :=
    funext fun ax => Fin.ext (by
      match ax with
      | ⟨0, _⟩ => exact rhs_row _ _
      | ⟨1, _⟩ => exact (rhs_feature _ _).trans hd)
  rw [el, er]

/-! ## The bias block down the rows -/

/-- The [1, 2048] bias block broadcast to [1024, 2048] reads, at (p, q), the block's entry (0, q). -/
theorem bias_rows_apply (b : FVec Ideal S1x2048 .f32) (p : Fin 1024) (q : Fin 2048) :
    broadcastTo S1024x2048 b broadcasts_S1x2048_S1024x2048 (ix2 p q) = b (ix2 0 q) :=
  broadcastTo_apply b broadcasts_S1x2048_S1024x2048 (ix2 p q) (ix2 0 q) (fun ax => match ax with
    | ⟨0, _⟩ => by show (0 : Nat) = if (1 : Nat) = 1 then 0 else _; rw [if_pos rfl]
    | ⟨1, _⟩ => by show q.val = if (2048 : Nat) = 1 then 0 else q.val; rw [if_neg (by decide)])

/-! ## The stored value -/

/-- What the body stores, at entry (p, q) of the tile. -/
theorem stored_apply (a : Vec Ideal S1024x128 .bf16) (w : Vec Ideal S2048x128 .bf16) (b : Vec Ideal S1x2048 .f32)
    (p : Fin 1024) (q : Fin 2048) :
    k0_pay1 (F := Ideal) a w b (ix2 p q) = (∑ d : Fin 128, a (ix2 p d) * w (ix2 q d)) + b (ix2 0 q) := by
  unfold k0_pay1
  rw [addf_apply, shapeCast_self, shapeCast_self, shapeCast_self, product_apply, bias_rows_apply]

end Cert.KernelIdeal.Tile

end
-- ==== Proof.Staged.lean ====
/-
  What the kernel's region finds in the three arrays it stages, as functions of the program's arguments.  Before the
  region the host wraps each negative class id (id + 500000 where id < 0), gathers the embedding rows and the biases
  at the wrapped ids, narrows the activations and the gathered rows to bf16 — the identity on the extended reals —
  and lays the gathered biases out as one row [1, 32768].  So the region finds the activations themselves, the
  gathered rows themselves, and the gathered biases at (0, s).
-/
import proofs.«116178_j69965017252067_1_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx

/-- The class ids as the gathers take them: negatives wrapped by the table's height, laid out as a column. -/
def wrappedIds (ids : (⟨S32768, .i32⟩ : BufTy).Contents (Elt Ideal)) : (⟨S32768x1, .i32⟩ : BufTy).Contents (Elt Ideal) :=
  broadcastInDim S32768x1 ![0] bcast_S32768_S32768x1_0
    (select (cmpi .slt ids (broadcastInDim S32768 ![] bcast_S_S32768 (constantI S_ 32 0#32)))
      (addi ids (broadcastInDim S32768 ![] bcast_S_S32768 (constantI S_ 32 500000#32))) ids)

/-- The sampled embedding rows: row s is the table's row at the s-th wrapped id. -/
def sampledRows (table : (⟨S500000x128, .f32⟩ : BufTy).Contents (Elt Ideal)) (ids : (⟨S32768, .i32⟩ : BufTy).Contents (Elt Ideal)) :
    (⟨S32768x128, .f32⟩ : BufTy).Contents (Elt Ideal) :=
  Host.gather gather_S500000x128_S32768x1_S32768x128_1_0_n_n_0_1_1128 table (wrappedIds ids)

/-- The sampled biases: entry s is the bias column's entry at the s-th wrapped id. -/
def sampledBias (bias : (⟨S500000x1, .f32⟩ : BufTy).Contents (Elt Ideal)) (ids : (⟨S32768, .i32⟩ : BufTy).Contents (Elt Ideal)) :
    (⟨S32768, .f32⟩ : BufTy).Contents (Elt Ideal) :=
  Host.gather gather_S500000_S32768x1_S32768_n_0_n_n_0_1_1 (shapeCast _ bias shapeCasts_S500000x1_S500000) (wrappedIds ids)

variable (m : (ℓ : Loc nD τ sig) → Buf (Elt Ideal) ℓ)

/-- The staged activations are the argument's: narrowing to bf16 changes no extended real. -/
theorem activations (c : Dev nD) :
    (V m c main_v15 : S4096x128.Idx → EReal) = m ((c : Thread nD τ).loc main_arg0) := by
  have e : (V m c main_v15 : S4096x128.Idx → EReal)
      = truncf (F := Ideal) .bf16 (m ((c : Thread nD τ).loc main_arg0)) bitsLt_bf16_f32 := by
    dsimp only [V, hostOps0]; after_results
  rw [e]; rfl

/-- The staged rows are the sampled rows. -/
theorem rows (c : Dev nD) :
    (V m c main_v16 : S32768x128.Idx → EReal)
      = sampledRows (m ((c : Thread nD τ).loc main_arg1)) (m ((c : Thread nD τ).loc main_arg3)) := by
  have e : (V m c main_v16 : S32768x128.Idx → EReal)
      = truncf (F := Ideal) .bf16 (sampledRows (m ((c : Thread nD τ).loc main_arg1)) (m ((c : Thread nD τ).loc main_arg3))) bitsLt_bf16_f32 := by
    dsimp only [V, hostOps0]; after_results; rfl
  rw [e]; rfl

/-- The staged bias row holds the sampled biases: its entry (0, s) is the s-th sampled bias. -/
theorem biasRow (c : Dev nD) (s : Fin 32768) :
    (V m c main_v17 : S1x32768.Idx → EReal) (ix2 0 s)
      = sampledBias (m ((c : Thread nD τ).loc main_arg2)) (m ((c : Thread nD τ).loc main_arg3)) (ix1 s) := by
  have e : (V m c main_v17 : S1x32768.Idx → EReal)
      = shapeCast _ (sampledBias (m ((c : Thread nD τ).loc main_arg2)) (m ((c : Thread nD τ).loc main_arg3))) shapeCasts_S32768_S1x32768 := by
    dsimp only [V, hostOps0]; after_results; rfl
  rw [e]
  exact shapeCast_apply _ shapeCasts_S32768_S1x32768 (ix2 0 s) (ix1 s)
    (by rw [Shape.rowMajor_val_one, Shape.rowMajor_val_two]; show s.val = 0 * 32768 + s.val; omega)

end Cert.KernelIdeal.Staged

end
-- ==== Proof.KernelValue.lean ====
/-
  From tiles to the whole array.  The grid has 4 × 16 points; point (i, j) takes rows 1024·i … of the activations,
  rows 2048·j … of the sampled embedding rows and columns 2048·j … of the bias row, and writes back the
  [1024, 2048] tile at block (i, j) of the result.  Each tile is the specification's logits read through that block:
  the tile's entry (p, q) is Σ_d x[1024·i + p, d] · rows[2048·j + q, d] + bias[2048·j + q].  The 64 tiles cover the
  [4096, 32768] result, so after the run the result array IS the logits of the activations, the sampled rows and the
  sampled biases.
-/
import proofs.«116178_j69965017252067_1_alg».proof.Proof.Gen.KernelIdeal.Value
import proofs.«116178_j69965017252067_1_alg».proof.Proof.Logits
import proofs.«116178_j69965017252067_1_alg».proof.Proof.Tile
import proofs.«116178_j69965017252067_1_alg».proof.Proof.Staged

noncomputable section

namespace Cert.KernelIdeal.Whole

open Cert.KernelIdeal Cert.KernelIdeal.Gen Cert.SampledLogits
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What the result array ends holding: the logits of the activations and of the rows and biases sampled at the
    class ids. -/
abbrev result (c : Dev nD) : S4096x32768.Idx → EReal :=
  logits (m ((c : Thread nD τ).loc main_arg0))
    (Staged.sampledRows (m ((c : Thread nD τ).loc main_arg1)) (m ((c : Thread nD τ).loc main_arg3)))
    (Staged.sampledBias (m ((c : Thread nD τ).loc main_arg2)) (m ((c : Thread nD τ).loc main_arg3)))

/-! ## The index maps over the grid -/

/-- At every grid point: the activations' block row is the result's block row, the sampled rows' block row and the
    bias row's block column are the result's block column, the other block indices are 0; and the result's block
    indices stay below 4 and 16. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 3 ∧ win0_3.index t (1 : Fin 2) ≤ 15 :=
  (by decide +kernel : ∀ t : Fin grid0.N, _)

/-- Every block (i, j) of the result, i < 4 and j < 16, is some grid point's. -/
theorem block_onto : ∀ (q0 : Fin 4) (q1 : Fin 16), ∃ t : Fin cfg0.N, win0_3.index t = ![q0.val, q1.val] :=
  (by decide +kernel : ∀ (q0 : Fin 4) (q1 : Fin 16), ∃ t : Fin grid0.N, win0_3.index t = ![q0.val, q1.val])

/-! ## The input blocks, read where the result's block says -/

/-- Row p of the activations' block at point t is the activations' row at the result block's row coordinate. -/
theorem act_block (c : Dev nD) (t : Fin cfg0.N) (j : S1024x2048.Idx) (d : Fin 128) :
    (iblk m c 0 t : S1024x128.Idx → EReal) (ix2 (j 0) d)
      = m ((c : Thread nD τ).loc main_arg0) (ix2 ((((cfg0.win 3).blk t).view.emb j) 0) d) := by
  obtain ⟨e0, e1, e2, e3, e4, e5, e6, e7⟩ := block_indices t
  show (V m c main_v15 : S4096x128.Idx → EReal) (((cfg0.win 0).blk t).view.emb (ix2 (j 0) d)) = _
  rw [Staged.activations]
  refine congrArg _ (funext fun ax => Fin.ext ?_)
  match ax with
  | ⟨0, _⟩ => show win0_0.index t (0 : Fin 2) * 1024 + 1 * (j 0).val = win0_3.index t (0 : Fin 2) * 1024 + 1 * (j 0).val; omega
  | ⟨1, _⟩ => show win0_0.index t (1 : Fin 2) * 128 + 1 * d.val = d.val; omega

/-- Row q of the sampled rows' block at point t is the sampled row at the result block's column coordinate. -/
theorem rows_block (c : Dev nD) (t : Fin cfg0.N) (j : S1024x2048.Idx) (d : Fin 128) :
    (iblk m c 1 t : S2048x128.Idx → EReal) (ix2 (j 1) d)
      = Staged.sampledRows (m ((c : Thread nD τ).loc main_arg1)) (m ((c : Thread nD τ).loc main_arg3))
          (ix2 ((((cfg0.win 3).blk t).view.emb j) 1) d) := by
  obtain ⟨e0, e1, e2, e3, e4, e5, e6, e7⟩ := block_indices t
  show (V m c main_v16 : S32768x128.Idx → EReal) (((cfg0.win 1).blk t).view.emb (ix2 (j 1) d)) = _
  rw [Staged.rows]
  refine congrArg _ (funext fun ax => Fin.ext ?_)
  match ax with
  | ⟨0, _⟩ => show win0_1.index t (0 : Fin 2) * 2048 + 1 * (j 1).val = win0_3.index t (1 : Fin 2) * 2048 + 1 * (j 1).val; omega
  | ⟨1, _⟩ => show win0_1.index t (1 : Fin 2) * 128 + 1 * d.val = d.val; omega

/-- Entry (0, q) of the bias row's block at point t is the sampled bias at the result block's column coordinate. -/
theorem bias_block (c : Dev nD) (t : Fin cfg0.N) (j : S1024x2048.Idx) :
    (iblk m c 2 t : S1x2048.Idx → EReal) (ix2 0 (j 1))
      = Staged.sampledBias (m ((c : Thread nD τ).loc main_arg2)) (m ((c : Thread nD τ).loc main_arg3))
          (ix1 ((((cfg0.win 3).blk t).view.emb j) 1)) := by
  obtain ⟨e0, e1, e2, e3, e4, e5, e6, e7⟩ := block_indices t
  show (V m c main_v17 : S1x32768.Idx → EReal) (((cfg0.win 2).blk t).view.emb (ix2 0 (j 1))) = _
  refine Eq.trans ?_ (Staged.biasRow m c ((((cfg0.win 3).blk t).view.emb j) 1))
  refine congrArg _ (funext fun ax => Fin.ext ?_)
  match ax with
  | ⟨0, _⟩ => show win0_2.index t (0 : Fin 2) * 1 + 1 * 0 = 0; omega
  | ⟨1, _⟩ => show win0_2.index t (1 : Fin 2) * 2048 + 1 * (j 1).val = win0_3.index t (1 : Fin 2) * 2048 + 1 * (j 1).val; omega

/-! ## What a point writes back -/

/-- WHAT POINT t WRITES BACK is the logits read through the result's block at t. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero zero_offsets]
  simp only [View.ld_unit_zero (S := S1024x128) zero_offsets, View.ld_unit_zero (S := S2048x128) zero_offsets,
    View.ld_unit_zero (S := S1x2048) zero_offsets]
  funext j
  show k0_pay1 (F := Ideal) (iblk m c 0 t) (iblk m c 1 t) (iblk m c 2 t) j = result m c (((cfg0.win 3).blk t).view.emb j)
  have hj : (j : S1024x2048.Idx) = ix2 (j 0) (j 1) := eq_ix2 j
  refine ((congrArg (k0_pay1 (F := Ideal) (iblk m c 0 t) (iblk m c 1 t) (iblk m c 2 t)) hj).trans
    (Tile.stored_apply (iblk m c 0 t) (iblk m c 1 t) (iblk m c 2 t) (j 0) (j 1))).trans ?_
  rw [bias_block m c t j]
  simp only [act_block m c t j, rows_block m c t j]
  rfl

/-! ## The tiles cover the result -/

/-- An entry of the result is in point t's block iff each coordinate is in the block's range on its axis. -/
theorem mem_blk (t : Fin cfg0.N) (i : S4096x32768.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v18).slice (win0_3.rect t)).set ↔ _
  rw [View.set_slice_whole, Rect.mem_set_unit]
  exact Iff.rfl

/-- Every entry (n, s) of the result lies in the block of the point whose block indices are (n / 1024, s / 2048). -/
theorem cover (i : S4096x32768.Idx) : ∃ t : Fin cfg0.N, (cfg0.win 3).flush t = true ∧ i ∈ ((cfg0.win 3).blk t).view.set := by
  have hi0 : (i 0).val < 4096 := (i 0).isLt
  have hi1 : (i 1).val < 32768 := (i 1).isLt
  obtain ⟨t, ht⟩ := block_onto ⟨(i 0).val / 1024, by omega⟩ ⟨(i 1).val / 2048, by omega⟩
  have q0 : win0_3.index t (0 : Fin 2) = (i 0).val / 1024 := congrFun ht 0
  have q1 : win0_3.index t (1 : Fin 2) = (i 1).val / 2048 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-! ## The array after the run, and the run -/

/-- THE RESULT ARRAY after the run is the logits. -/
theorem final (c : Dev nD) : (dats m 0 c).arrAt 3 cfg0.N = result m c :=
  (dats m 0 c).arrAt_eq_of_cover 3 (result m c) (fun t _ => flushed_eq m c t) cover

/-- The kernel program's run: the result array ends at the logits, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefValue.lean ====
/-
  The reference, read at an entry.  It gathers the sampled embedding rows and biases, contracts the activations with
  the gathered rows over the feature axis (an einsum "nd,sd->ns": both operands' axis 1), and adds the gathered
  biases broadcast down the 4096 rows.  Entry (n, s) of its result is Σ_d x[n, d] · rows[s, d] + bias[s]: the
  specification's function of the activations and of the reference's own two gathers.
-/
import proofs.«116178_j69965017252067_1_alg».proof.Proof.Gen.ReferenceIdeal.Read
import proofs.«116178_j69965017252067_1_alg».proof.Proof.Logits

noncomputable section

namespace Cert.ReferenceIdeal.RefValue

open Cert.ReferenceIdeal Cert.ReferenceIdeal.Gen Cert.ReferenceIdeal.Read Cert.SampledLogits
open Idealize.ShloMosaic Idealize.ShloMosaic.ValueIdx

/-- The reference's result is the logits of the activations, its gathered rows and its gathered biases. -/
theorem result_eq (x : (⟨S4096x128, .f32⟩ : BufTy).Contents (Elt Ideal)) (table : (⟨S500000x128, .f32⟩ : BufTy).Contents (Elt Ideal))
    (bias : (⟨S500000x1, .f32⟩ : BufTy).Contents (Elt Ideal)) (ids : (⟨S32768, .i32⟩ : BufTy).Contents (Elt Ideal)) :
    val_main_v18 (F := Ideal) x table bias ids
      = logits x (val_main_v6 (F := Ideal) table ids) (val_main_v14 (F := Ideal) bias ids) := by
  funext i
  -- the contraction reads the activations at (row of i, d) and the gathered rows at (column of i, d)
  have hl : ∀ d : Fin 128, lidx_main_v15 i d = ix2 (i 0) d := fun d => funext fun ax => Fin.ext (by
    match ax with | ⟨0, _⟩ => rfl | ⟨1, _⟩ => rfl)
  have hr : ∀ d : Fin 128, ridx_main_v15 i d = ix2 (i 1) d := fun d => funext fun ax => Fin.ext (by
    match ax with | ⟨0, _⟩ => rfl | ⟨1, _⟩ => rfl)
  -- the two broadcasts read the gathered biases at the column of i
  have hb : idx_main_v16 (idx_main_v17 i) = ix1 (i 1) := funext fun ax => Fin.ext (by
    match ax with | ⟨0, _⟩ => rfl)
  rw [val_main_v18_apply, val_main_v15_apply, val_main_v17_apply, val_main_v16_apply]
  simp only [hl, hr, hb]
  rfl

end Cert.ReferenceIdeal.RefValue

end
-- ==== Proof.lean ====
/-
  Sampled-class logits: a tiled matrix product with bias on the TensorCore against an einsum on the host.

  Both programs take activations x : [4096, 128], an embedding table [500000, 128], a bias column [500000, 1] and
  32768 class ids.  Both wrap the negative ids by the table's height and gather the sampled rows W[s, ·] and the
  sampled biases B[s] with the same host operations.  The reference then contracts x with W over the feature axis
  and adds B down the rows; the kernel narrows x and W to bf16 (the identity on the extended reals), lays B out as one
  row, and computes the result in 4 × 16 tiles of [1024, 2048], each tile a product of a row block of x with the
  transpose of a row block of W into a zero accumulator, plus the bias block broadcast down the tile's rows.

  On the extended reals both results are, entry by entry,
      logits[n, s] = Σ_d x[n, d] · W[s, d] + B[s]
  (Proof/Logits.lean).  Proof/Tile.lean reads one tile at an entry; Proof/Staged.lean says what the region finds in
  the arrays it stages; Proof/KernelValue.lean reads each tile through its block of the result and covers the result
  with the 64 tiles; Proof/RefValue.lean reads the reference's operations at an entry.  The two sums are over the
  same index in the same order and no term is moved across a sum, so the inputs' finiteness is not used.  The second
  result of both programs is the class-id argument itself.
-/
import proofs.«116178_j69965017252067_1_alg».proof.Defs
import proofs.«116178_j69965017252067_1_alg».proof.Proof.Gen.Kernel
import proofs.«116178_j69965017252067_1_alg».proof.Proof.Gen.Kernel.Frame
import proofs.«116178_j69965017252067_1_alg».proof.Proof.Gen.KernelIdeal
import proofs.«116178_j69965017252067_1_alg».proof.Proof.Gen.KernelIdeal.Frame
import proofs.«116178_j69965017252067_1_alg».proof.Proof.Gen.KernelIdeal.Value
import proofs.«116178_j69965017252067_1_alg».proof.Proof.Gen.ReferenceIdeal
import proofs.«116178_j69965017252067_1_alg».proof.Proof.Gen.ReferenceIdeal.Run
import proofs.«116178_j69965017252067_1_alg».proof.Proof.Gen.ReferenceIdeal.Read
import proofs.«116178_j69965017252067_1_alg».proof.Proof.Gen.Pre_finite_inputs
import proofs.«116178_j69965017252067_1_alg».proof.Proof.KernelValue
import proofs.«116178_j69965017252067_1_alg».proof.Proof.RefValue

noncomputable section

namespace Cert.Proof

open Idealize.ShloMosaic Idealize.ShloMosaic.TcCoe Idealize.SL.Sem Cert.SampledLogits

/-! ## The two programs sample the same rows and biases -/

/-- The kernel program's gathered rows are the reference's: the same wrap of the ids, the same gather. -/
theorem rows_agree (table : (⟨Cert.KernelIdeal.S500000x128, .f32⟩ : BufTy).Contents (Elt Ideal))
    (ids : (⟨Cert.KernelIdeal.S32768, .i32⟩ : BufTy).Contents (Elt Ideal)) :
    Cert.KernelIdeal.Staged.sampledRows table ids = Cert.ReferenceIdeal.Read.val_main_v6 (F := Ideal) table ids := rfl

/-- The kernel program's gathered biases are the reference's. -/
theorem bias_agree (bias : (⟨Cert.KernelIdeal.S500000x1, .f32⟩ : BufTy).Contents (Elt Ideal))
    (ids : (⟨Cert.KernelIdeal.S32768, .i32⟩ : BufTy).Contents (Elt Ideal)) :
    Cert.KernelIdeal.Staged.sampledBias bias ids = Cert.ReferenceIdeal.Read.val_main_v14 (F := Ideal) bias ids := rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the logits of the activations and the sampled
    rows and biases as their first result, and with the class ids as their second. -/
theorem algebraic : Cert.algebraic_KernelIdeal_ReferenceIdeal := by
  intro m ρ m' ρ' _ hagree
  refine ⟨fun c => Cert.KernelIdeal.Whole.result m c,
    fun c => m ((c.tc : Thread Cert.KernelIdeal.nD Cert.KernelIdeal.τ).loc Cert.KernelIdeal.main_arg3), ?_, ?_⟩
  · refine (θ_run Cert.KernelIdeal.defs _ _).mono (fun r h c => ?_) (Cert.KernelIdeal.Whole.run m ρ)
    obtain ⟨h18, h0, h1, h2, h3⟩ := h c
    exact ⟨h18, h3, h0, h1, h2, h3⟩
  · refine (θ_run Cert.ReferenceIdeal.defs _ _).mono (fun r h c => ?_) (Cert.ReferenceIdeal.Value.run (F := Ideal) m' ρ')
    obtain ⟨h18, h3, h0, h1, h2, h3'⟩ := h c
    obtain ⟨a0, a1, a2, a3⟩ := hagree c
    refine ⟨h18.trans ?_, h3.trans a3, h0, h1, h2, h3'⟩
    rw [Cert.ReferenceIdeal.Read.val_main_v18_eq, Cert.ReferenceIdeal.RefValue.result_eq, a0, a1, a2, a3]
    show logits _ _ _ = logits _ _ _
    rw [rows_agree, bias_agree]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
